-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128 .f32) (main_arg3 : FVec F S128 .f32) (main_arg4 : IVec S1600000 32) (main_arg5 : IVec S1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S4000x128 : Shape := ⟨2, ![4000, 128]⟩
abbrev S4000 : Shape := ⟨1, ![4000]⟩
abbrev S4000x1 : Shape := ⟨2, ![4000, 1]⟩

abbrev nBuf : Space → Nat
  | .hbm => 22
  | .vmem => 9
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S1x128, .f32⟩
  | .hbm, ⟨20, _⟩ => ⟨S1x128, .f32⟩
  | .hbm, ⟨21, _⟩ => ⟨S100000x128, .f32⟩
  | .local _ .vmem, ⟨0, _⟩ => ⟨S4000x128, .f32⟩
  | .local _ .vmem, ⟨1, _⟩ => ⟨S4000x128, .f32⟩
  | .local _ .vmem, ⟨2, _⟩ => ⟨S4000x128, .f32⟩
  | .local _ .vmem, ⟨3, _⟩ => ⟨S4000x128, .f32⟩
  | .local _ .vmem, ⟨4, _⟩ => ⟨S128x128, .f32⟩
  | .local _ .vmem, ⟨5, _⟩ => ⟨S1x128, .f32⟩
  | .local _ .vmem, ⟨6, _⟩ => ⟨S1x128, .f32⟩
  | .local _ .vmem, ⟨7, _⟩ => ⟨S4000x128, .f32⟩
  | .local _ .vmem, ⟨8, _⟩ => ⟨S4000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  shapeCasts_S128_S1x128 : S128.ShapeCasts S1x128
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  transposes_S128x128_p1_0_S128x128 : S128x128.Transposes [1, 0] S128x128
  reduces_S4000x128_S4000 : S4000x128.Reduces [1] S4000
  shapeCasts_S4000_S4000x1 : S4000.ShapeCasts S4000x1
  broadcasts_S4000x1_S4000x128 : S4000x1.Broadcasts S4000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S4000x128 : S1x128.Broadcasts S4000x128
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S4000x128_S128x128_S4000x128_1_0_0_1_n_n_wf : DotDims.WF S4000x128 S128x128 S4000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x128.size a ≤ S100000x128.size a
  hwx0_0 : ∀ i : grid0.Coords, EltTy.bits .f32 = 32 ∨ (Rect.block (s := S100000x128) S4000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4000x128.size a ≤ S100000x128.size a
  hwx0_1 : ∀ i : grid0.Coords, EltTy.bits .f32 = 32 ∨ (Rect.block (s := S100000x128) S4000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4000x128.size a ≤ S100000x128.size a
  hwx0_5 : ∀ i : grid0.Coords, EltTy.bits .f32 = 32 ∨ (Rect.block (s := S100000x128) S4000x128.size (cc0_transform_5 i) (hinb0_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S4000x128_S128x128_S4000x128_1_0_0_1_n_n : DotDims S4000x128 S128x128 S4000x128 where
  lhsContracting := [1]
  rhsContracting := [0]
  lhsNonContracting := [0]
  rhsNonContracting := [1]
  lhsBatch := []
  rhsBatch := []
  wf := dot_S4000x128_S128x128_S4000x128_1_0_0_1_n_n_wf

abbrev win0_0 : Pipeline.Window sig grid0 :=
  Pipeline.Window.ofSpec (Memref.whole main_v9) S4000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S4000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩

abbrev nBuf : Space → Nat
  | .hbm => 54
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128, .f32⟩
  | .hbm, ⟨4, _⟩ => ⟨S1600000, .i32⟩
  | .hbm, ⟨5, _⟩ => ⟨S1600000, .i32⟩
  | .hbm, ⟨6, _⟩ => ⟨S_, .i32⟩
  | .hbm, ⟨7, _⟩ => ⟨S1600000, .i32⟩
  | .hbm, ⟨8, _⟩ => ⟨S1600000, .i1⟩
  | .hbm, ⟨9, _⟩ => ⟨S_, .i32⟩
  | .hbm, ⟨10, _⟩ => ⟨S1600000, .i32⟩
  | .hbm, ⟨11, _⟩ => ⟨S1600000, .i32⟩
  | .hbm, ⟨12, _⟩ => ⟨S1600000, .i32⟩
  | .hbm, ⟨13, _⟩ => ⟨S1600000x1, .i32⟩
  | .hbm, ⟨14, _⟩ => ⟨S1600000x128, .f32⟩
  | .hbm, ⟨15, _⟩ => ⟨S_, .f32⟩
  | .hbm, ⟨16, _⟩ => ⟨S100000x128, .f32⟩
  | .hbm, ⟨17, _⟩ => ⟨S1600000x1, .i32⟩
  | .hbm, ⟨18, _⟩ => ⟨S100000x128, .f32⟩
  | .hbm, ⟨19, _⟩ => ⟨S128x128, .f32⟩
  | .hbm, ⟨20, _⟩ => ⟨S100000x128, .f32⟩
  | .hbm, ⟨21, _⟩ => ⟨S_, .f32⟩
  | .hbm, ⟨22, _⟩ => ⟨S100000x128, .f32⟩
  | .hbm, ⟨23, _⟩ => ⟨S100000x128, .f32⟩
  | .hbm, ⟨24, _⟩ => ⟨S100000x128, .f32⟩
  | .hbm, ⟨25, _⟩ => ⟨S_, .f32⟩
  | .hbm, ⟨26, _⟩ => ⟨S100000, .f32⟩
  | .hbm, ⟨27, _⟩ => ⟨S100000x1, .f32⟩
  | .hbm, ⟨28, _⟩ => ⟨S_, .f32⟩
  | .hbm, ⟨29, _⟩ => ⟨S100000x1, .f32⟩
  | .hbm, ⟨30, _⟩ => ⟨S100000x1, .f32⟩
  | .hbm, ⟨31, _⟩ => ⟨S100000x128, .f32⟩
  | .hbm, ⟨32, _⟩ => ⟨S100000x128, .f32⟩
  | .hbm, ⟨33, _⟩ => ⟨S100000x128, .f32⟩
  | .hbm, ⟨34, _⟩ => ⟨S_, .f32⟩
  | .hbm, ⟨35, _⟩ => ⟨S100000, .f32⟩
  | .hbm, ⟨36, _⟩ => ⟨S100000x1, .f32⟩
  | .hbm, ⟨37, _⟩ => ⟨S_, .f32⟩
  | .hbm, ⟨38, _⟩ => ⟨S100000x1, .f32⟩
  | .hbm, ⟨39, _⟩ => ⟨S100000x1, .f32⟩
  | .hbm, ⟨40, _⟩ => ⟨S100000x128, .f32⟩
  | .hbm, ⟨41, _⟩ => ⟨S100000x128, .f32⟩
  | .hbm, ⟨42, _⟩ => ⟨S_, .f32⟩
  | .hbm, ⟨43, _⟩ => ⟨S100000x1, .f32⟩
  | .hbm, ⟨44, _⟩ => ⟨S100000x1, .f32⟩
  | .hbm, ⟨45, _⟩ => ⟨S100000x1, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call0_cst : Ref sig .tc := ⟨.hbm, 21, rfl⟩
abbrev main_call0_v0 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_3 : Ref sig .tc := ⟨.hbm, 34, rfl⟩
abbrev main_v21 : Ref sig .tc := ⟨.hbm, 35, rfl⟩
abbrev main_v22 : Ref sig .tc := ⟨.hbm, 36, rfl⟩
abbrev main_cst_4 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  transposes_S128x128_S128x128_1_0 : S128x128.Transposes [1, 0] S128x128
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.RowSpec.lean ====
/-
  One output row of the graph-convolution layer as a function of one row of its inputs.

  For a node, let `a` be the row of summed neighbour features, `hr` the node's own feature row, `W` the weight
  matrix, `g` and `b` the affine parameters of the normalisation.  The layer's row is
    x j   = max (∑ k, a k · W j k) 0 + hr j                    (linear map, rectifier, residual)
    μ     = (∑ j, x j) / 128
    v     = (∑ j, (x j − μ)²) / 128
    out q = (x q − μ) · (v + ε)^(−1/2) · g q + b q
  read on the extended reals.  The constants `0`, `128` and `ε` are kept as the values of their float
  patterns; only the zero pattern is ever evaluated (it is the neutral element a sum starts from).
-/
import Idealize.ShloMosaic.PureOps.Ideal
import Idealize.ShloMosaic.PureOps.Ideal.Laws

noncomputable section

namespace Cert.GraphNorm

open Idealize.ShloMosaic

/-- The value of the float pattern of `0.0`. -/
abbrev zeroLit : EReal := Ideal.ofBits .f32 0x00000000#32
/-- The value of the float pattern of `128.0`, the row width the means divide by. -/
abbrev widthLit : EReal := Ideal.ofBits .f32 0x43000000#32
/-- The value of the float pattern of the normalisation's `ε`. -/
abbrev epsLit : EReal := Ideal.ofBits .f32 0x3727C5AC#32

/-- The activation row: the rectified linear image of the aggregated row plus the residual. -/
def act (a hr : Fin 128 → EReal) (W : Fin 128 → Fin 128 → EReal) (j : Fin 128) : EReal :=
  max (∑ k : Fin 128, a k * W j k) zeroLit + hr j

/-- The mean of a row of 128 entries. -/
def mean (x : Fin 128 → EReal) : EReal := Ideal.div (∑ j : Fin 128, x j) widthLit

/-- A row centred at its mean. -/
def centred (x : Fin 128 → EReal) (j : Fin 128) : EReal := x j - mean x

/-- The reciprocal standard deviation of a row (variance about the mean, plus `ε`). -/
def invStd (x : Fin 128 → EReal) : EReal :=
  Ideal.rsqrt (mean (fun j => centred x j * centred x j) + epsLit)

/-- A row normalised and put through the affine map. -/
def normRow (x g b : Fin 128 → EReal) (q : Fin 128) : EReal :=
  centred x q * invStd x * g q + b q

/-- The layer's output row. -/
def rowOut (a hr : Fin 128 → EReal) (W : Fin 128 → Fin 128 → EReal) (g b : Fin 128 → EReal) (q : Fin 128) : EReal :=
  normRow (act a hr W) g b q

/-- A sum that starts from the zero pattern is the plain sum. -/
theorem zeroLit_add (s : EReal) : zeroLit + s = s := by
  show Ideal.ofBits .f32 0x00000000#32 + s = s
  rw [Ideal.ofBits_zero_f32, zero_add]

end Cert.GraphNorm

end
-- ==== Proof.RefRow.lean ====
/-
  The reference program read one row at a time.

  Its last stage, read at the index (r, q), is the layer's output row `rowOut` of row `r` of the aggregated
  features (the scatter-add stage, left unopened), row `r` of the node features, the weight matrix and the two
  affine vectors.  Each stage is read at an index by its generated lemma; what is proved here is that the index
  each stage hands to its operand is the expected pair of coordinates, and that a host sum started at the zero
  pattern is the plain sum.
-/
import proofs.«145110_j38774964748853_1_alg».proof.Proof.Gen.ReferenceIdeal.Read
import proofs.«145110_j38774964748853_1_alg».proof.Proof.RowSpec

noncomputable section

namespace Cert.GraphNorm.Ref

open Cert.ReferenceIdeal Cert.ReferenceIdeal.Read Idealize.ShloMosaic Idealize.ShloMosaic.ValueIdx Cert.GraphNorm

/-- Two rank-two indices with the same coordinates. -/
local macro "idx2" : tactic =>
  `(tactic| exact funext fun a => Fin.ext (by match a with | ⟨0, _⟩ => rfl | ⟨1, _⟩ => rfl))
/-- Two rank-one indices with the same coordinate. -/
local macro "idx1" : tactic =>
  `(tactic| exact funext fun a => Fin.ext (by match a with | ⟨0, _⟩ => rfl))

variable (x0 : (⟨S100000x128, .f32⟩ : BufTy).Contents (Elt Ideal)) (x1 : (⟨S128x128, .f32⟩ : BufTy).Contents (Elt Ideal))
  (x2 x3 : (⟨S128, .f32⟩ : BufTy).Contents (Elt Ideal)) (x4 x5 : (⟨S1600000, .i32⟩ : BufTy).Contents (Elt Ideal))

/-- Row `r` of the aggregated neighbour features: the scatter-add stage read along a row. -/
def aggRow (r : Fin 100000) (k : Fin 128) : EReal := val_main_v9 (F := Ideal) x0 x4 x5 (ix2 r k)
/-- Row `r` of the node features. -/
def featRow (r : Fin 100000) (j : Fin 128) : EReal := x0 (ix2 r j)
/-- The weight matrix by its two coordinates. -/
def weight (j k : Fin 128) : EReal := x1 (ix2 j k)

/-- The activation stage at (r, j): the contraction runs over the second coordinate of both operands, the right
    one being the transposed weights. -/
theorem act_stage (r : Fin 100000) (j : Fin 128) :
    val_main_v13 (F := Ideal) x0 x1 x4 x5 (ix2 r j) = act (aggRow x0 x4 x5 r) (featRow x0 r) (weight x1) j := by
  rw [val_main_v13_apply, val_main_v12_apply, val_main_v11_apply, val_main_call0_v0_apply, val_main_call0_cst_apply]
  have hs : (∑ k : Fin 128, val_main_v9 (F := Ideal) x0 x4 x5 (lidx_main_v11 (ix2 r j) k) * val_main_v10 (F := Ideal) x1 (ridx_main_v11 (ix2 r j) k))
      = ∑ k : Fin 128, aggRow x0 x4 x5 r k * weight x1 j k :=
    Finset.sum_congr rfl fun k _ => by
      rw [val_main_v10_apply, show lidx_main_v11 (ix2 r j) k = ix2 r k by idx2,
        show idx_main_v10 (ridx_main_v11 (ix2 r j) k) = ix2 j k by idx2]
      rfl
  rw [hs]
  rfl

/-- The activation row of node `r`, as the reference's stage. -/
abbrev xRow (r : Fin 100000) (j : Fin 128) : EReal := val_main_v13 (F := Ideal) x0 x1 x4 x5 (ix2 r j)

theorem xRow_eq (r : Fin 100000) : xRow x0 x1 x4 x5 r = act (aggRow x0 x4 x5 r) (featRow x0 r) (weight x1) :=
  funext fun j => act_stage x0 x1 x4 x5 r j

/-- The first row sum. -/
theorem sum_stage (r : Fin 100000) :
    val_main_v14 (F := Ideal) x0 x1 x4 x5 (ix1 r) = ∑ j : Fin 128, xRow x0 x1 x4 x5 r j := by
  rw [val_main_v14_apply, val_main_cst_1_apply]
  refine (zeroLit_add _).trans (Finset.sum_congr rfl fun k _ => ?_)
  rw [show idx_main_v14 (ix1 r) k = ix2 r k by idx2]

/-- The row mean, kept as a one-column array. -/
theorem mean_stage (r : Fin 100000) (u : Fin 1) :
    val_main_v17 (F := Ideal) x0 x1 x4 x5 (ix2 r u) = mean (xRow x0 x1 x4 x5 r) := by
  rw [val_main_v17_apply, val_main_v15_apply, val_main_v16_apply, val_main_cst_2_apply,
    show idx_main_v15 (ix2 r u) = ix1 r by idx1, sum_stage]
  rfl

/-- The centred row, as the operand of the square … -/
theorem centred_stage (r : Fin 100000) (j : Fin 128) :
    val_main_v19 (F := Ideal) x0 x1 x4 x5 (ix2 r j) = centred (xRow x0 x1 x4 x5 r) j := by
  rw [val_main_v19_apply, val_main_v18_apply, show idx_main_v18 (ix2 r j) = ix2 r (0 : Fin 1) by idx2, mean_stage]
  rfl

/-- … and again as the operand of the final product. -/
theorem centred_stage' (r : Fin 100000) (j : Fin 128) :
    val_main_v26 (F := Ideal) x0 x1 x4 x5 (ix2 r j) = centred (xRow x0 x1 x4 x5 r) j := by
  rw [val_main_v26_apply, val_main_v25_apply, show idx_main_v25 (ix2 r j) = ix2 r (0 : Fin 1) by idx2, mean_stage]
  rfl

/-- The sum of squares of the centred row. -/
theorem sqsum_stage (r : Fin 100000) :
    val_main_v21 (F := Ideal) x0 x1 x4 x5 (ix1 r)
      = ∑ j : Fin 128, centred (xRow x0 x1 x4 x5 r) j * centred (xRow x0 x1 x4 x5 r) j := by
  rw [val_main_v21_apply, val_main_cst_3_apply]
  refine (zeroLit_add _).trans (Finset.sum_congr rfl fun k _ => ?_)
  rw [show idx_main_v21 (ix1 r) k = ix2 r k by idx2, val_main_v20_apply, centred_stage]
  rfl

/-- The reciprocal standard deviation, kept as a one-column array. -/
theorem invStd_stage (r : Fin 100000) (u : Fin 1) :
    val_main_v29 (F := Ideal) x0 x1 x4 x5 (ix2 r u) = invStd (xRow x0 x1 x4 x5 r) := by
  rw [val_main_v29_apply, val_main_v28_apply, val_main_v24_apply, val_main_v22_apply, val_main_v23_apply,
    val_main_cst_4_apply, val_main_v27_apply, val_main_cst_5_apply,
    show idx_main_v22 (ix2 r u) = ix1 r by idx1, sqsum_stage]
  rfl

/-- An affine vector broadcast over the rows reads its own entry at the column. -/
theorem gamma_stage (r : Fin 100000) (q : Fin 128) : val_main_v33 (F := Ideal) x2 (ix2 r q) = x2 (ix1 q) := by
  rw [val_main_v33_apply, val_main_v32_apply]
  exact congrArg x2 (by idx1)

theorem beta_stage (r : Fin 100000) (q : Fin 128) : val_main_v36 (F := Ideal) x3 (ix2 r q) = x3 (ix1 q) := by
  rw [val_main_v36_apply, val_main_v35_apply]
  exact congrArg x3 (by idx1)

/-- The reference's result at (r, q) is the layer's output row of node `r` at column `q`. -/
theorem result_stage (r : Fin 100000) (q : Fin 128) :
    val_main_v37 (F := Ideal) x0 x1 x2 x3 x4 x5 (ix2 r q)
      = rowOut (aggRow x0 x4 x5 r) (featRow x0 r) (weight x1) (fun j => x2 (ix1 j)) (fun j => x3 (ix1 j)) q := by
  rw [val_main_v37_apply, val_main_v34_apply, val_main_v31_apply, centred_stage', val_main_v30_apply,
    show idx_main_v30 (ix2 r q) = ix2 r (0 : Fin 1) by idx2, invStd_stage, gamma_stage, beta_stage, xRow_eq]
  rfl

end Cert.GraphNorm.Ref

end
-- ==== Proof.KerRow.lean ====
/-
  The kernel body's stored value read one row at a time.

  The body works on a block of 4000 rows.  Its stored value at the block index (p, q) is the layer's output row
  `rowOut` of row `p` of the block of aggregated features, row `p` of the block of node features, the weight
  matrix and the two affine rows.  The body is first regrouped into its natural stages (the activation, a row mean
  kept as a column, the centred block, the reciprocal standard deviation, the affine map); each stage is then read
  at an index.  The matrix product contracts the aggregated row with a row of the weights because its right operand
  is the transposed weight matrix; a change of float format is the identity on the extended reals.
-/
import proofs.«145110_j38774964748853_1_alg».proof.Proof.Gen.KernelIdeal.Skeleton
import proofs.«145110_j38774964748853_1_alg».proof.Proof.RowSpec
import Idealize.ShloMosaic.Lib.ValueIdx
import Idealize.ShloMosaic.Lib.ValueLayout
import Idealize.ShloMosaic.Lib.Pipeline.Value
import Idealize.ShloMosaic.PureOps.Ideal.Laws

noncomputable section

namespace Cert.GraphNorm.Ker

open Cert.KernelIdeal Cert.KernelIdeal.Gen Idealize.ShloMosaic Idealize.ShloMosaic.ValueIdx Cert.GraphNorm

local macro "idx2" : tactic =>
  `(tactic| exact funext fun a => Fin.ext (by match a with | ⟨0, _⟩ => rfl | ⟨1, _⟩ => rfl))

/-! ## Two column forms of the layout operations -/

/-- A vector of `a` entries cast to one column reads, at (p, u), its entry `p`. -/
theorem shapeCast_col_apply {α : Type} {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- One column broadcast over `b` columns reads, at (p, c), the column's entry `p`. -/
theorem broadcastTo_col_apply {α : Type} {a b : ℕ} (ha : a ≠ 1) (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    rw [if_neg ha]
  | ⟨1, _⟩ =>
    show 0 = if (1 : ℕ) = 1 then 0 else c.val
    rw [if_pos rfl]

/-! ## The body regrouped into stages -/

/-- The activation block: rectified product of the aggregated block with the transposed weights, plus the
    feature block. -/
def kAct (v0 v2 : FVec Ideal S4000x128 .f32) (v3 : FVec Ideal S128x128 .f32) : FVec Ideal S4000x128 .f32 :=
  addf (maximumf (matmul dot_S4000x128_S128x128_S4000x128_1_0_0_1_n_n none
      (truncf .bf16 (shapeCast S4000x128 v0 shapeCasts_S4000x128_S4000x128) bitsLt_bf16_f32)
      (transpose S128x128 [1, 0] (truncf .bf16 v3 bitsLt_bf16_f32) transposes_S128x128_p1_0_S128x128)
      (constant S4000x128 .f32 0x00000000#32))
    (broadcast S4000x128 (Scalar.ofBits .f32 0x00000000#32))) v2

/-- The row means of a block, as one column. -/
def kMean (X : FVec Ideal S4000x128 .f32) : FVec Ideal S4000x1 .f32 :=
  divf (shapeCast S4000x1 (multiReduction .add [1] S4000 X 0x00000000#32 reduces_S4000x128_S4000 (.inl rfl) rfl) shapeCasts_S4000_S4000x1)
    (broadcast S4000x1 (Scalar.ofBits .f32 0x43000000#32))

/-- A block with each row centred at its mean. -/
def kCentred (X : FVec Ideal S4000x128 .f32) : FVec Ideal S4000x128 .f32 :=
  subf X (broadcastTo S4000x128 (kMean X) broadcasts_S4000x1_S4000x128)

/-- The rows' reciprocal standard deviations, as one column. -/
def kInv (X : FVec Ideal S4000x128 .f32) : FVec Ideal S4000x1 .f32 :=
  rsqrt (addf (kMean (mulf (kCentred X) (kCentred X))) (broadcast S4000x1 (Scalar.ofBits .f32 0x3727C5AC#32)))

/-- The normalised block through the affine map. -/
def kOut (X : FVec Ideal S4000x128 .f32) (v27 v29 : FVec Ideal S1x128 .f32) : FVec Ideal S4000x128 .f32 :=
  addf (mulf (mulf (kCentred X) (broadcastTo S4000x128 (kInv X) broadcasts_S4000x1_S4000x128))
      (broadcastTo S4000x128 (shapeCast S1x128 v27 shapeCasts_S1x128_S1x128) broadcasts_S1x128_S4000x128))
    (broadcastTo S4000x128 (shapeCast S1x128 v29 shapeCasts_S1x128_S1x128) broadcasts_S1x128_S4000x128)

/-- The stored value is the stages composed. -/
theorem pay_eq_stages (v0 v2 : FVec Ideal S4000x128 .f32) (v3 : FVec Ideal S128x128 .f32) (v27 v29 : FVec Ideal S1x128 .f32) :
    k0_pay1 (F := Ideal) v0 v2 v3 v27 v29 = kOut (kAct v0 v2 v3) v27 v29 := rfl

/-! ## The matrix product's operand indices -/

theorem lhs_dot_0 (i : S4000x128.Idx) (q : dot_S4000x128_S128x128_S4000x128_1_0_0_1_n_n.contr.Idx) :
    (dot_S4000x128_S128x128_S4000x128_1_0_0_1_n_n.lhsIdx i q 0).val = (i 0).val := by
  unfold DotDims.lhsIdx
  rw [dif_neg (show ¬(0 : Fin S4000x128.rank) ∈ dot_S4000x128_S128x128_S4000x128_1_0_0_1_n_n.lhsBatch by decide), dif_pos (show (0 : Fin S4000x128.rank) ∈ dot_S4000x128_S128x128_S4000x128_1_0_0_1_n_n.lhsNonContracting by decide)]
  rfl
theorem lhs_dot_1 (i : S4000x128.Idx) (q : dot_S4000x128_S128x128_S4000x128_1_0_0_1_n_n.contr.Idx) :
    (dot_S4000x128_S128x128_S4000x128_1_0_0_1_n_n.lhsIdx i q 1).val = (q ⟨0, by decide⟩).val :=
  dot_S4000x128_S128x128_S4000x128_1_0_0_1_n_n.lhsIdx_val_of_single rfl i q
theorem rhs_dot_0 (i : S4000x128.Idx) (q : dot_S4000x128_S128x128_S4000x128_1_0_0_1_n_n.contr.Idx) :
    (dot_S4000x128_S128x128_S4000x128_1_0_0_1_n_n.rhsIdx i q 0).val = (q ⟨0, by decide⟩).val :=
  dot_S4000x128_S128x128_S4000x128_1_0_0_1_n_n.rhsIdx_val_of_single rfl i q
theorem rhs_dot_1 (i : S4000x128.Idx) (q : dot_S4000x128_S128x128_S4000x128_1_0_0_1_n_n.contr.Idx) :
    (dot_S4000x128_S128x128_S4000x128_1_0_0_1_n_n.rhsIdx i q 1).val = (i 1).val := by
  unfold DotDims.rhsIdx
  rw [dif_neg (show ¬(1 : Fin S128x128.rank) ∈ dot_S4000x128_S128x128_S4000x128_1_0_0_1_n_n.rhsBatch by decide), dif_pos (show (1 : Fin S128x128.rank) ∈ dot_S4000x128_S128x128_S4000x128_1_0_0_1_n_n.rhsNonContracting by decide)]
  rfl

/-- The product into the zero accumulator at (p, j): the sum over `k` of the left operand at (p, k) times the right
    operand at (k, j). -/
theorem matmul_zero_apply (l : FVec Ideal S4000x128 .bf16) (r : FVec Ideal S128x128 .bf16) (p : Fin 4000) (j : Fin 128) :
    matmul dot_S4000x128_S128x128_S4000x128_1_0_0_1_n_n none l r (constant S4000x128 .f32 0x00000000#32) (ix2 p j)
      = ∑ k : Fin 128, l (ix2 p k) * r (ix2 k j) := by
  simp only [matmul]
  rw [Ideal.matmul_constant_zero_apply, ← Equiv.sum_comp (ValueIdx.contrEquiv1 dot_S4000x128_S128x128_S4000x128_1_0_0_1_n_n 128 rfl rfl).symm]
  refine Finset.sum_congr rfl fun k _ => ?_
  have hk := ValueIdx.contrEquiv1_symm_val dot_S4000x128_S128x128_S4000x128_1_0_0_1_n_n 128 rfl rfl k
  have el : dot_S4000x128_S128x128_S4000x128_1_0_0_1_n_n.lhsIdx (ix2 p j) ((ValueIdx.contrEquiv1 dot_S4000x128_S128x128_S4000x128_1_0_0_1_n_n 128 rfl rfl).symm k) = ix2 p k := funext fun a => Fin.ext (by
    match a with
    | ⟨0, _⟩ => exact lhs_dot_0 _ _
    | ⟨1, _⟩ => exact (lhs_dot_1 _ _).trans hk)
  have er : dot_S4000x128_S128x128_S4000x128_1_0_0_1_n_n.rhsIdx (ix2 p j) ((ValueIdx.contrEquiv1 dot_S4000x128_S128x128_S4000x128_1_0_0_1_n_n 128 rfl rfl).symm k) = ix2 k j := funext fun a => Fin.ext (by
    match a with
    | ⟨0, _⟩ => exact (rhs_dot_0 _ _).trans hk
    | ⟨1, _⟩ => exact rhs_dot_1 _ _)
  rw [el, er]

/-! ## The stages read at an index -/

/-- Row `p` of a block. -/
abbrev rowOf (X : FVec Ideal S4000x128 .f32) (p : Fin 4000) (j : Fin 128) : EReal := X (ix2 p j)

theorem kAct_apply (v0 v2 : FVec Ideal S4000x128 .f32) (v3 : FVec Ideal S128x128 .f32) (p : Fin 4000) (j : Fin 128) :
    kAct v0 v2 v3 (ix2 p j) = act (rowOf v0 p) (rowOf v2 p) (fun j k => v3 (ix2 j k)) j := by
  show max (matmul dot_S4000x128_S128x128_S4000x128_1_0_0_1_n_n none _ _ (constant S4000x128 .f32 0x00000000#32) (ix2 p j)) zeroLit + v2 (ix2 p j) = _
  rw [matmul_zero_apply]
  have hs : (∑ k : Fin 128, (truncf .bf16 (shapeCast S4000x128 v0 shapeCasts_S4000x128_S4000x128) bitsLt_bf16_f32 : FVec Ideal S4000x128 .bf16) (ix2 p k)
        * (transpose S128x128 [1, 0] (truncf .bf16 v3 bitsLt_bf16_f32) transposes_S128x128_p1_0_S128x128 : FVec Ideal S128x128 .bf16) (ix2 k j))
      = ∑ k : Fin 128, rowOf v0 p k * v3 (ix2 j k) :=
    Finset.sum_congr rfl fun k _ => by
      rw [transpose_ix2_apply, shapeCast_self]
      rfl
  rw [hs]
  rfl

theorem rowSum_apply (X : FVec Ideal S4000x128 .f32) (hφ : FKind.Formats .f32) (hacc : (0x00000000#32 : BitVec 32) = FKind.add.neutral .f32 hφ) (p : Fin 4000) :
    multiReduction .add [1] S4000 X 0x00000000#32 reduces_S4000x128_S4000 hφ hacc (ix1 p) = ∑ j : Fin 128, rowOf X p j :=
  (Ideal.multiReduction_add_single X 0x00000000#32 reduces_S4000x128_S4000 hφ hacc (ix1 p)).trans
    (Finset.sum_congr rfl fun k _ => congrArg X (by idx2))

theorem kMean_apply (X : FVec Ideal S4000x128 .f32) (p : Fin 4000) (u : Fin 1) :
    kMean X (ix2 p u) = mean (rowOf X p) := by
  show Ideal.div (shapeCast S4000x1 _ shapeCasts_S4000_S4000x1 (ix2 p u)) widthLit = _
  rw [shapeCast_col_apply]
  exact congrArg (Ideal.div · widthLit) (rowSum_apply X _ _ p)

theorem kCentred_apply (X : FVec Ideal S4000x128 .f32) (p : Fin 4000) (j : Fin 128) :
    kCentred X (ix2 p j) = centred (rowOf X p) j := by
  show X (ix2 p j) - broadcastTo S4000x128 (kMean X) broadcasts_S4000x1_S4000x128 (ix2 p j) = _
  rw [broadcastTo_col_apply (by decide), kMean_apply]
  rfl

theorem kInv_apply (X : FVec Ideal S4000x128 .f32) (p : Fin 4000) (u : Fin 1) :
    kInv X (ix2 p u) = invStd (rowOf X p) := by
  show Ideal.rsqrt (kMean (mulf (kCentred X) (kCentred X)) (ix2 p u) + epsLit) = _
  rw [kMean_apply]
  have hr : rowOf (mulf (kCentred X) (kCentred X)) p = fun j => centred (rowOf X p) j * centred (rowOf X p) j :=
    funext fun j => by
      show kCentred X (ix2 p j) * kCentred X (ix2 p j) = _
      rw [kCentred_apply]
  rw [hr]
  rfl

theorem kOut_apply (X : FVec Ideal S4000x128 .f32) (v27 v29 : FVec Ideal S1x128 .f32) (p : Fin 4000) (q : Fin 128) :
    kOut X v27 v29 (ix2 p q) = normRow (rowOf X p) (fun j => v27 (ix2 (0 : Fin 1) j)) (fun j => v29 (ix2 (0 : Fin 1) j)) q := by
  show kCentred X (ix2 p q) * broadcastTo S4000x128 (kInv X) broadcasts_S4000x1_S4000x128 (ix2 p q)
      * broadcastTo S4000x128 (shapeCast S1x128 v27 shapeCasts_S1x128_S1x128) broadcasts_S1x128_S4000x128 (ix2 p q)
      + broadcastTo S4000x128 (shapeCast S1x128 v29 shapeCasts_S1x128_S1x128) broadcasts_S1x128_S4000x128 (ix2 p q) = _
  rw [kCentred_apply, broadcastTo_col_apply (by decide), kInv_apply, broadcastTo_1b_ab_apply, broadcastTo_1b_ab_apply,
    shapeCast_self, shapeCast_self]
  rfl

/-- The stored value at (p, q) is the layer's output row of the blocks' rows `p`, at column `q`. -/
theorem pay_apply (v0 v2 : FVec Ideal S4000x128 .f32) (v3 : FVec Ideal S128x128 .f32) (v27 v29 : FVec Ideal S1x128 .f32)
    (p : Fin 4000) (q : Fin 128) :
    k0_pay1 (F := Ideal) v0 v2 v3 v27 v29 (ix2 p q)
      = rowOut (rowOf v0 p) (rowOf v2 p) (fun j k => v3 (ix2 j k)) (fun j => v27 (ix2 (0 : Fin 1) j)) (fun j => v29 (ix2 (0 : Fin 1) j)) q := by
  rw [pay_eq_stages, kOut_apply]
  have hx : rowOf (kAct v0 v2 v3) p = act (rowOf v0 p) (rowOf v2 p) (fun j k => v3 (ix2 j k)) :=
    funext fun j => kAct_apply v0 v2 v3 p j
  rw [hx]
  rfl

end Cert.GraphNorm.Ker

end
-- ==== Proof.FoundArrays.lean ====
/-
  The layer's output as one function of whole arrays, and the arrays the kernel region finds.

  `layerOut` at (r, q) is the layer's output row of node `r` at column `q`.  The arrays the region finds are read
  off the host operations before it: the aggregated features are the scatter-add of the gathered rows, the affine
  rows are the two parameter vectors reshaped to one row each, the node features and the weights are arguments.
-/
import proofs.«145110_j38774964748853_1_alg».proof.Proof.Gen.KernelIdeal.Value
import proofs.«145110_j38774964748853_1_alg».proof.Proof.KerRow
import Idealize.ShloMosaic.Lib.StableHlo.Run

set_option maxRecDepth 16384

noncomputable section

namespace Cert.GraphNorm.Arr

open Cert.KernelIdeal Cert.KernelIdeal.Gen Idealize.ShloMosaic Idealize.ShloMosaic.TcCoe Idealize.SL.Sem
open Idealize.ShloMosaic.ValueIdx Cert.GraphNorm
open Idealize.ShloMosaic.Pipeline (Dat)

variable (m : (ℓ : Loc nD τ sig) → Buf (Elt Ideal) ℓ) (ρ : Dev nD → PrngReg)

/-! ## The whole-array function -/

/-- The layer's output at node `r`, column `q`, from the whole arrays. -/
def layerAt (A H : FVec Ideal S100000x128 .f32) (W : FVec Ideal S128x128 .f32) (g b : Fin 128 → EReal)
    (r : Fin 100000) (q : Fin 128) : EReal :=
  rowOut (fun k => A (ix2 r k)) (fun j => H (ix2 r j)) (fun j k => W (ix2 j k)) g b q

/-- The layer's output array. -/
def layerOut (A H : FVec Ideal S100000x128 .f32) (W : FVec Ideal S128x128 .f32) (g b : Fin 128 → EReal) :
    FVec Ideal S100000x128 .f32 :=
  fun i => layerAt A H W g b ⟨(i 0).val, (i 0).isLt⟩ ⟨(i 1).val, (i 1).isLt⟩

theorem layerOut_apply (A H : FVec Ideal S100000x128 .f32) (W : FVec Ideal S128x128 .f32) (g b : Fin 128 → EReal)
    (r : Fin 100000) (q : Fin 128) : layerOut A H W g b (ix2 r q) = layerAt A H W g b r q := rfl

/-- The aggregated neighbour features of the host prefix: rows gathered by source node (a negative index wrapped
    once), summed into their destination rows. -/
def aggOf (x0 : (⟨S100000x128, .f32⟩ : BufTy).Contents (Elt Ideal)) (x4 x5 : (⟨S1600000, .i32⟩ : BufTy).Contents (Elt Ideal)) :
    (⟨S100000x128, .f32⟩ : BufTy).Contents (Elt Ideal) :=
  Host.scatterAdd scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 x5)
    (Host.gather gather_S100000x128_S1600000x1_S1600000x128_1_0_n_n_0_1_1128 x0
      (broadcastInDim S1600000x1 ![0] bcast_S1600000_S1600000x1_0
        (select (cmpi .slt x4 (broadcastInDim S1600000 ![] bcast_S_S1600000 (constantI S_ 32 0#32)))
          (addi x4 (broadcastInDim S1600000 ![] bcast_S_S1600000 (constantI S_ 32 100000#32))) x4)))

/-- The kernel program's result array as one function of its six arguments. -/
def result (x0 : (⟨S100000x128, .f32⟩ : BufTy).Contents (Elt Ideal)) (x1 : (⟨S128x128, .f32⟩ : BufTy).Contents (Elt Ideal))
    (x2 x3 : (⟨S128, .f32⟩ : BufTy).Contents (Elt Ideal)) (x4 x5 : (⟨S1600000, .i32⟩ : BufTy).Contents (Elt Ideal)) :
    FVec Ideal S100000x128 .f32 :=
  layerOut (aggOf x0 x4 x5) x0 x1 (fun j => x2 (ix1 j)) (fun j => x3 (ix1 j))

/-! ## The arrays as the region finds them -/

def aggArr (c : Dev nD) : FVec Ideal S100000x128 .f32 := V m c main_v9
def featArr (c : Dev nD) : FVec Ideal S100000x128 .f32 := V m c main_arg0
def weightArr (c : Dev nD) : FVec Ideal S128x128 .f32 := V m c main_arg1
def gammaArr (c : Dev nD) : FVec Ideal S1x128 .f32 := V m c main_v10
def betaArr (c : Dev nD) : FVec Ideal S1x128 .f32 := V m c main_v11

theorem aggArr_eq (c : Dev nD) :
    aggArr m c = aggOf (m ((c : Thread nD τ).loc main_arg0)) (m ((c : Thread nD τ).loc main_arg4)) (m ((c : Thread nD τ).loc main_arg5)) := by
  show V m c main_v9 = _
  dsimp only [V, hostOps0]
  after_results
  rfl

theorem featArr_eq (c : Dev nD) : featArr m c = m ((c : Thread nD τ).loc main_arg0) := V_main_arg0 m c
theorem weightArr_eq (c : Dev nD) : weightArr m c = m ((c : Thread nD τ).loc main_arg1) := V_main_arg1 m c

theorem gammaArr_eq (c : Dev nD) :
    gammaArr m c = shapeCast S1x128 (m ((c : Thread nD τ).loc main_arg2)) shapeCasts_S128_S1x128 := by
  show V m c main_v10 = _
  dsimp only [V, hostOps0]
  after_results
  rfl

theorem betaArr_eq (c : Dev nD) :
    betaArr m c = shapeCast S1x128 (m ((c : Thread nD τ).loc main_arg3)) shapeCasts_S128_S1x128 := by
  show V m c main_v11 = _
  dsimp only [V, hostOps0]
  after_results
  rfl

end Cert.GraphNorm.Arr

end
-- ==== Proof.KerArray.lean ====
/-
  From the kernel's blocks to its whole output array.

  Grid point `t` works on rows 4000·t … 4000·t + 3999: the aggregated features, the node features and the output
  move together, one block of 4000 rows per point, while the weights and the two affine rows are the same whole
  arrays at every point.  So what point `t` writes back is block `t` of the whole-array function `layerOut`; the 25
  blocks tile the 100000 rows, hence the output array ends holding `layerOut`.
-/
import proofs.«145110_j38774964748853_1_alg».proof.Proof.FoundArrays

set_option maxRecDepth 16384

noncomputable section

namespace Cert.GraphNorm.Arr

open Cert.KernelIdeal Cert.KernelIdeal.Gen Idealize.ShloMosaic Idealize.ShloMosaic.TcCoe Idealize.SL.Sem
open Idealize.ShloMosaic.ValueIdx Cert.GraphNorm
open Idealize.ShloMosaic.Pipeline (Dat)

variable (m : (ℓ : Loc nD τ sig) → Buf (Elt Ideal) ℓ) (ρ : Dev nD → PrngReg)
/-! ## The blocks -/

theorem origin_zero : (![0, 0] : Fin 2 → Nat) = fun _ => 0 := funext fun a => by fin_cases a <;> rfl

/-- Where the index maps send grid point `t`: the three row-blocked windows to block `t` of the rows, the three
    whole-array windows to their one block (decided over the 25 points). -/
theorem block_index : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The node whose row is row `p` of point `t`'s block. -/
def rowAt (t : Fin cfg0.N) (p : Fin 4000) : Fin 100000 :=
  ⟨t.val * 4000 + p.val, by
    have ht : t.val < 25 := lt_of_lt_of_eq t.isLt N_0
    have hp := p.isLt
    omega⟩

/-- Row `p` of point `t`'s block of a row-blocked array is row 4000·t + p of the array (the aggregated features'
    window). -/
theorem read_aggBlk (A : FVec Ideal S100000x128 .f32) (t : Fin cfg0.N) (p : Fin 4000) (k : Fin 128) :
    ((cfg0.win 0).blk t).view.read (Elt Ideal) A (ix2 p k) = A (ix2 (rowAt t p) k) := by
  obtain ⟨e0, e1, -⟩ := block_index t
  show A (((cfg0.win 0).blk t).view.emb (ix2 p k)) = A (ix2 (rowAt t p) k)
  refine congrArg A (funext fun a => Fin.ext ?_)
  match a with
  | ⟨0, _⟩ => show win0_0.index t (0 : Fin 2) * 4000 + 1 * p.val = t.val * 4000 + p.val; omega
  | ⟨1, _⟩ => show win0_0.index t (1 : Fin 2) * 128 + 1 * k.val = k.val; omega

/-- The same for the node features' window. -/
theorem read_featBlk (H : FVec Ideal S100000x128 .f32) (t : Fin cfg0.N) (p : Fin 4000) (j : Fin 128) :
    ((cfg0.win 1).blk t).view.read (Elt Ideal) H (ix2 p j) = H (ix2 (rowAt t p) j) := by
  obtain ⟨-, -, e0, e1, -⟩ := block_index t
  show H (((cfg0.win 1).blk t).view.emb (ix2 p j)) = H (ix2 (rowAt t p) j)
  refine congrArg H (funext fun a => Fin.ext ?_)
  match a with
  | ⟨0, _⟩ => show win0_1.index t (0 : Fin 2) * 4000 + 1 * p.val = t.val * 4000 + p.val; omega
  | ⟨1, _⟩ => show win0_1.index t (1 : Fin 2) * 128 + 1 * j.val = j.val; omega

/-- The weights' one block is the whole matrix. -/
theorem read_weightBlk (W : FVec Ideal S128x128 .f32) (t : Fin cfg0.N) (j k : Fin 128) :
    ((cfg0.win 2).blk t).view.read (Elt Ideal) W (ix2 j k) = W (ix2 j k) := by
  obtain ⟨-, -, -, -, e0, e1, -⟩ := block_index t
  show W (((cfg0.win 2).blk t).view.emb (ix2 j k)) = W (ix2 j k)
  refine congrArg W (funext fun a => Fin.ext ?_)
  match a with
  | ⟨0, _⟩ => show win0_2.index t (0 : Fin 2) * 128 + 1 * j.val = j.val; omega
  | ⟨1, _⟩ => show win0_2.index t (1 : Fin 2) * 128 + 1 * k.val = k.val; omega

/-- Each affine row's one block is the whole row. -/
theorem read_gammaBlk (G : FVec Ideal S1x128 .f32) (t : Fin cfg0.N) (j : Fin 128) :
    ((cfg0.win 3).blk t).view.read (Elt Ideal) G (ix2 (0 : Fin 1) j) = G (ix2 (0 : Fin 1) j) := by
  obtain ⟨-, -, -, -, -, -, e0, e1, -⟩ := block_index t
  show G (((cfg0.win 3).blk t).view.emb (ix2 (0 : Fin 1) j)) = G (ix2 (0 : Fin 1) j)
  refine congrArg G (funext fun a => Fin.ext ?_)
  match a with
  | ⟨0, _⟩ => show win0_3.index t (0 : Fin 2) * 1 + 1 * 0 = 0; omega
  | ⟨1, _⟩ => show win0_3.index t (1 : Fin 2) * 128 + 1 * j.val = j.val; omega

theorem read_betaBlk (B : FVec Ideal S1x128 .f32) (t : Fin cfg0.N) (j : Fin 128) :
    ((cfg0.win 4).blk t).view.read (Elt Ideal) B (ix2 (0 : Fin 1) j) = B (ix2 (0 : Fin 1) j) := by
  obtain ⟨-, -, -, -, -, -, -, -, e0, e1, -⟩ := block_index t
  show B (((cfg0.win 4).blk t).view.emb (ix2 (0 : Fin 1) j)) = B (ix2 (0 : Fin 1) j)
  refine congrArg B (funext fun a => Fin.ext ?_)
  match a with
  | ⟨0, _⟩ => show win0_4.index t (0 : Fin 2) * 1 + 1 * 0 = 0; omega
  | ⟨1, _⟩ => show win0_4.index t (1 : Fin 2) * 128 + 1 * j.val = j.val; omega

/-- For ANY five arrays under the input windows: the body's stored value over their blocks at point `t`, at an index
    of the block the point writes back, is `layerOut` of the arrays at the array index under it. -/
theorem stored_at (A H : FVec Ideal S100000x128 .f32) (W : FVec Ideal S128x128 .f32) (G B : FVec Ideal S1x128 .f32)
    (t : Fin cfg0.N) (y : ((cfg0.win 5).xblock (grid0.coords t)).Idx) :
    k0_pay1 (F := Ideal) (((cfg0.win 0).blk t).view.read (Elt Ideal) A) (((cfg0.win 1).blk t).view.read (Elt Ideal) H)
        (((cfg0.win 2).blk t).view.read (Elt Ideal) W) (((cfg0.win 3).blk t).view.read (Elt Ideal) G)
        (((cfg0.win 4).blk t).view.read (Elt Ideal) B) ((cfg0.win 5).xinj (grid0.coords t) y)
      = layerOut A H W (fun j => G (ix2 (0 : Fin 1) j)) (fun j => B (ix2 (0 : Fin 1) j)) (((cfg0.win 5).blk t).view.emb y) := by
  have h0 : (y 0).val < 4000 := (y 0).isLt
  have h1 : (y 1).val < 128 := (y 1).isLt
  have hx : (cfg0.win 5).xinj (grid0.coords t) y = ix2 (⟨(y 0).val, h0⟩ : Fin 4000) (⟨(y 1).val, h1⟩ : Fin 128) :=
    funext fun a => Fin.ext (by match a with | ⟨0, _⟩ => rfl | ⟨1, _⟩ => rfl)
  have he : ((cfg0.win 5).blk t).view.emb y = ix2 (rowAt t ⟨(y 0).val, h0⟩) (⟨(y 1).val, h1⟩ : Fin 128) := by
    obtain ⟨-, -, -, -, -, -, -, -, -, -, e0, e1⟩ := block_index t
    refine funext fun a => Fin.ext ?_
    match a with
    | ⟨0, _⟩ => show win0_5.index t (0 : Fin 2) * 4000 + 1 * (y 0).val = t.val * 4000 + (y 0).val; omega
    | ⟨1, _⟩ => show win0_5.index t (1 : Fin 2) * 128 + 1 * (y 1).val = (y 1).val; omega
  rw [hx, he, Ker.pay_apply, layerOut_apply]
  unfold layerAt
  rw [show Ker.rowOf (((cfg0.win 0).blk t).view.read (Elt Ideal) A) ⟨(y 0).val, h0⟩ = fun k => A (ix2 (rowAt t ⟨(y 0).val, h0⟩) k) from funext fun k => read_aggBlk A t _ k,
    show Ker.rowOf (((cfg0.win 1).blk t).view.read (Elt Ideal) H) ⟨(y 0).val, h0⟩ = fun j => H (ix2 (rowAt t ⟨(y 0).val, h0⟩) j) from funext fun j => read_featBlk H t _ j,
    show (fun j k => ((cfg0.win 2).blk t).view.read (Elt Ideal) W (ix2 j k)) = fun j k => W (ix2 j k) from funext fun j => funext fun k => read_weightBlk W t j k,
    show (fun j => ((cfg0.win 3).blk t).view.read (Elt Ideal) G (ix2 (0 : Fin 1) j)) = fun j => G (ix2 (0 : Fin 1) j) from funext fun j => read_gammaBlk G t j,
    show (fun j => ((cfg0.win 4).blk t).view.read (Elt Ideal) B (ix2 (0 : Fin 1) j)) = fun j => B (ix2 (0 : Fin 1) j) from funext fun j => read_betaBlk B t j]

/-- The whole-array function over the arrays the region finds. -/
def found (c : Dev nD) : FVec Ideal S100000x128 .f32 :=
  layerOut (aggArr m c) (featArr m c) (weightArr m c) (fun j => gammaArr m c (ix2 (0 : Fin 1) j)) (fun j => betaArr m c (ix2 (0 : Fin 1) j))

/-- Any array read through the output window's block at point `t` is the array at the index under the block index. -/
theorem read_outBlk (f : FVec Ideal S100000x128 .f32) (t : Fin cfg0.N) (y : ((cfg0.win 5).xblock (grid0.coords t)).Idx) :
    ((cfg0.win 5).blk t).view.read (Elt Ideal) f y = f (((cfg0.win 5).blk t).view.emb y) := rfl

/-- What point `t` writes back is block `t` of the whole-array function. -/
theorem flushed_eq (c : Dev nD) (t : Fin cfg0.N) :
    (dats m 0 c).flushed 5 t = ((cfg0.win 5).blk t).view.read (Elt Ideal) (found m c) := by
  rw [Cert.KernelIdeal.Value.flushed5]
  unfold out0_5 iblk
  rw [View.canon_unit_zero origin_zero]
  simp only [View.ld_unit_zero (S := S4000x128) origin_zero, View.ld_unit_zero (S := S128x128) origin_zero,
    View.ld_unit_zero (S := S1x128) origin_zero]
  funext y
  refine Eq.trans ?_ (read_outBlk (found m c) t y).symm
  exact stored_at (aggArr m c) (featArr m c) (weightArr m c) (gammaArr m c) (betaArr m c) t y

/-! ## The cover -/

theorem mem_outBlk (t : Fin cfg0.N) (i : S100000x128.Idx) :
    i ∈ ((cfg0.win 5).blk t).view.set ↔ ∀ a : Fin 2, win0_5.index t a * S4000x128.size a ≤ (i a).val ∧ (i a).val < win0_5.index t a * S4000x128.size a + S4000x128.size a := by
  show i ∈ ((View.whole main_v12).slice (win0_5.rect t)).set ↔ _
  rw [View.set_slice_whole, Rect.mem_set_unit]
  exact Iff.rfl

/-- Row `r` lies in the block of point `r / 4000`. -/
theorem covered (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hlt : (i 0).val / 4000 < cfg0.N := by
    have hN : cfg0.N = 25 := N_0
    rw [hN]; omega
  obtain ⟨-, -, -, -, -, -, -, -, -, -, e0, e1⟩ := block_index ⟨(i 0).val / 4000, hlt⟩
  have e0' : win0_5.index ⟨(i 0).val / 4000, hlt⟩ (0 : Fin 2) = (i 0).val / 4000 := e0
  refine ⟨⟨(i 0).val / 4000, hlt⟩, flush0_5 _, ?_⟩
  rw [mem_outBlk]
  intro a
  match a with
  | ⟨0, _⟩ => show win0_5.index ⟨(i 0).val / 4000, hlt⟩ (0 : Fin 2) * 4000 ≤ (i 0).val ∧ (i 0).val < win0_5.index ⟨(i 0).val / 4000, hlt⟩ (0 : Fin 2) * 4000 + 4000; omega
  | ⟨1, _⟩ => show win0_5.index ⟨(i 0).val / 4000, hlt⟩ (1 : Fin 2) * 128 ≤ (i 1).val ∧ (i 1).val < win0_5.index ⟨(i 0).val / 4000, hlt⟩ (1 : Fin 2) * 128 + 128; omega

/-! ## The array after the run, and the run -/

/-- Over the arrays the region finds, the whole-array function is `result` of the program's arguments. -/
theorem found_eq (c : Dev nD) :
    found m c = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) := by
  have hg : (fun j => gammaArr m c (ix2 (0 : Fin 1) j)) = fun j : Fin 128 => m ((c : Thread nD τ).loc main_arg2) (ix1 j) :=
    funext fun j => by rw [gammaArr_eq]; exact shapeCast_a_1a_apply _ _ _ _
  have hb : (fun j => betaArr m c (ix2 (0 : Fin 1) j)) = fun j : Fin 128 => m ((c : Thread nD τ).loc main_arg3) (ix1 j) :=
    funext fun j => by rw [betaArr_eq]; exact shapeCast_a_1a_apply _ _ _ _
  unfold found result
  rw [hg, hb, aggArr_eq, featArr_eq, weightArr_eq]

theorem final (c : Dev nD) :
    (dats m 0 c).arrAt 5 cfg0.N = result (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5)) :=
  ((dats m 0 c).arrAt_eq_of_cover 5 (found m c) (fun t _ => flushed_eq m c t) covered).trans (found_eq m c)

/-- Every weakly fair execution of the kernel program ends with its result array at `result` of the arguments,
    the arguments unchanged. -/
theorem run : θ_run defs (onTc (τ := τ) (main (F := Ideal))) ⟨m, fun _ => 0, ρ⟩ fun r => ∀ c : Dev nD,
      r.2.mem ((c : Thread nD τ).loc main_v12) = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Cert.KernelIdeal.Value.run_blocks m ρ)

end Cert.GraphNorm.Arr

end
-- ==== Proof.Bridge.lean ====
/-
  The reference's result is the kernel program's.

  Both programs begin with the same host operations (gather the source rows, sum them into the destination rows),
  so the aggregated features are one and the same function of the arguments.  Downstream, the reference's last
  stage at (r, q) is the layer's output row of node `r` at column `q` — which is what the kernel's output array
  holds there.
-/
import proofs.«145110_j38774964748853_1_alg».proof.Proof.RefRow
import proofs.«145110_j38774964748853_1_alg».proof.Proof.KerArray

noncomputable section

namespace Cert.GraphNorm.Bridge

open Idealize.ShloMosaic Idealize.ShloMosaic.ValueIdx Cert.GraphNorm

variable (x0 : (⟨Cert.ReferenceIdeal.S100000x128, .f32⟩ : BufTy).Contents (Elt Ideal)) (x1 : (⟨Cert.ReferenceIdeal.S128x128, .f32⟩ : BufTy).Contents (Elt Ideal))
  (x2 x3 : (⟨Cert.ReferenceIdeal.S128, .f32⟩ : BufTy).Contents (Elt Ideal)) (x4 x5 : (⟨Cert.ReferenceIdeal.S1600000, .i32⟩ : BufTy).Contents (Elt Ideal))

/-- The two programs' aggregation stages are the same term. -/
theorem agg_same : Cert.ReferenceIdeal.Read.val_main_v9 (F := Ideal) x0 x4 x5 = Arr.aggOf x0 x4 x5 := rfl

/-- The reference's last stage is the kernel program's result function of the same arguments. -/
theorem ref_is_result :
    Cert.ReferenceIdeal.Read.val_main_v37 (F := Ideal) x0 x1 x2 x3 x4 x5 = Arr.result x0 x1 x2 x3 x4 x5 := by
  funext i
  obtain ⟨r, q, rfl⟩ : ∃ (r : Fin 100000) (q : Fin 128), i = ix2 r q := ⟨i 0, i 1, eq_ix2 i⟩
  rw [Ref.result_stage]
  show _ = Arr.layerAt (Arr.aggOf x0 x4 x5) x0 x1 (fun j => x2 (ix1 j)) (fun j => x3 (ix1 j)) r q
  unfold Arr.layerAt Ref.aggRow Ref.featRow Ref.weight
  rw [agg_same]

end Cert.GraphNorm.Bridge

end
-- ==== Proof.lean ====
/-
  The certificate of a graph-convolution layer: for 100000 nodes with 128 features each, sum the neighbours'
  feature rows over 1600000 edges, apply a linear map, a rectifier and the residual, and normalise each row
  (mean, variance, reciprocal square root, affine map).

  The kernel program does the neighbour sum with host operations and everything after it in one kernel over 25
  blocks of 4000 rows; the reference does all of it with host operations.  On the extended reals both compute,
  at node r and column q,
      (x q − μ) · (v + ε)^(−1/2) · γ q + β q,   x j = max (∑ k, agg r k · W j k) 0 + h r j,
      μ = (∑ j, x j) / 128,   v = (∑ j, (x j − μ)²) / 128,
  with the same aggregated rows `agg`: the sums run over the same index sets, the two divisions and the two
  reciprocal square roots are the same functions, and a change of float format is the identity.  No law that
  needs finite inputs is used.

  Proof/RowSpec.lean states the row function; Proof/RefRow.lean reads the reference's stages as it; Proof/KerRow.lean
  reads the kernel body's stored value as it; Proof/KerArray.lean takes the kernel's blocks to its whole output
  array; Proof/Bridge.lean joins the two sides.  The three frames are the generated runs; the idealization rewrote
  nothing, so there is nothing to preserve.
-/
import proofs.«145110_j38774964748853_1_alg».proof.Defs
import proofs.«145110_j38774964748853_1_alg».proof.Proof.Gen.Kernel
import proofs.«145110_j38774964748853_1_alg».proof.Proof.Gen.Kernel.Skeleton
import proofs.«145110_j38774964748853_1_alg».proof.Proof.Gen.Kernel.Launch
import proofs.«145110_j38774964748853_1_alg».proof.Proof.Gen.Kernel.Points
import proofs.«145110_j38774964748853_1_alg».proof.Proof.Gen.Kernel.Frame
import proofs.«145110_j38774964748853_1_alg».proof.Proof.Gen.KernelIdeal
import proofs.«145110_j38774964748853_1_alg».proof.Proof.Gen.KernelIdeal.Skeleton
import proofs.«145110_j38774964748853_1_alg».proof.Proof.Gen.KernelIdeal.Launch
import proofs.«145110_j38774964748853_1_alg».proof.Proof.Gen.KernelIdeal.Points
import proofs.«145110_j38774964748853_1_alg».proof.Proof.Gen.KernelIdeal.Frame
import proofs.«145110_j38774964748853_1_alg».proof.Proof.Gen.ReferenceIdeal
import proofs.«145110_j38774964748853_1_alg».proof.Proof.Gen.Pre_finite_inputs
import proofs.«145110_j38774964748853_1_alg».proof.Proof.Gen.KernelIdeal.Value
import proofs.«145110_j38774964748853_1_alg».proof.Proof.Gen.ReferenceIdeal.Run
import proofs.«145110_j38774964748853_1_alg».proof.Proof.Gen.ReferenceIdeal.Read
import proofs.«145110_j38774964748853_1_alg».proof.Proof.Bridge
import Idealize.ShloMosaic.Adequacy
import Idealize.ShloMosaic.Init

noncomputable section

namespace Cert.Proof

open Idealize.ShloMosaic Idealize.SL.Sem Cert.GraphNorm

/-- The word-level kernel program runs and leaves its arguments as they were. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs end with the same result array: the kernel's output
    array holds the layer's whole-array function of the arguments, and the reference's last stage is that function. -/
theorem algebraic : Cert.algebraic_KernelIdeal_ReferenceIdeal := by
  intro m ρ m' ρ' _ hagree
  refine ⟨_, Arr.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v37_eq, Bridge.ref_is_result,
    (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
